-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x128x128x32 : Shape := ⟨4, ![32, 128, 128, 32]⟩
abbrev S1x1x32x32 : Shape := ⟨4, ![1, 1, 32, 32]⟩
abbrev S_ : Shape := ⟨0, ![]⟩

class Facts : Prop where
  bcast_S_S32x128x128x32 : S_.BroadcastsInDim S32x128x128x32 (![] : Fin 0 → Fin S32x128x128x32.rank)
  reducesTo_S32x128x128x32_S_d0_1_2_3 : S32x128x128x32.ReducesTo [0, 1, 2, 3] S_
  h_S_ : 0 < S_.numel
  bcast_S_S1x1x32x32 : S_.BroadcastsInDim S1x1x32x32 (![] : Fin 0 → Fin S1x1x32x32.rank)
  reducesTo_S1x1x32x32_S_d0_1_2_3 : S1x1x32x32.ReducesTo [0, 1, 2, 3] S_

variable [Facts]

def fn {F : FTy → Type} [FloatOps F] (main_arg0 : FVec F S32x128x128x32 .f32) (main_arg1 : FVec F S1x1x32x32 .f32) : IVec S_ 1 :=
  let main_v0 : FVec F S32x128x128x32 .f32 := Host.absf main_arg0
  let main_cst : FVec F S_ .f32 := constant S_ .f32 0x7F800000#32
  let main_v1 : FVec F S32x128x128x32 .f32 := broadcastInDim S32x128x128x32 ![] bcast_S_S32x128x128x32 main_cst
  let main_v2 : IVec S32x128x128x32 1 := cmpf .olt main_v0 main_v1
  let main_c : IVec S_ 1 := constantI S_ 1 1#1
  let main_v3 : IVec S_ 1 := (fun x v => Host.reduce IntOp.andi x v reducesTo_S32x128x128x32_S_d0_1_2_3 h_S_) main_v2 main_c
  let main_v4 : FVec F S1x1x32x32 .f32 := Host.absf main_arg1
  let main_cst_0 : FVec F S_ .f32 := constant S_ .f32 0x7F800000#32
  let main_v5 : FVec F S1x1x32x32 .f32 := broadcastInDim S1x1x32x32 ![] bcast_S_S1x1x32x32 main_cst_0
  let main_v6 : IVec S1x1x32x32 1 := cmpf .olt main_v4 main_v5
  let main_c_1 : IVec S_ 1 := constantI S_ 1 1#1
  let main_v7 : IVec S_ 1 := (fun x v => Host.reduce IntOp.andi x v reducesTo_S1x1x32x32_S_d0_1_2_3 h_S_) main_v6 main_c_1
  let main_v8 : IVec S_ 1 := andi main_v3 main_v7
  main_v8
-- ==== Kernel.lean ====
abbrev S32x128x128x32 : Shape := ⟨4, ![32, 128, 128, 32]⟩
abbrev S1x1x32x32 : Shape := ⟨4, ![1, 1, 32, 32]⟩
abbrev S_ : Shape := ⟨0, ![]⟩
abbrev S1x1x32 : Shape := ⟨3, ![1, 1, 32]⟩
abbrev S1x1x1x32 : Shape := ⟨4, ![1, 1, 1, 32]⟩
abbrev S32x32 : Shape := ⟨2, ![32, 32]⟩
abbrev S524288x32 : Shape := ⟨2, ![524288, 32]⟩
abbrev S16384x32 : Shape := ⟨2, ![16384, 32]⟩
abbrev S16384 : Shape := ⟨1, ![16384]⟩
abbrev S16384x1 : Shape := ⟨2, ![16384, 1]⟩

abbrev nBuf : Space → Nat
  | .hbm => 22
  | .vmem => 5
  | .smem => 0
  | _ => 0

abbrev bufTy : (tb : Table) → Fin (tcTables nBuf tb) → BufTy
  | .hbm, ⟨0, _⟩ => ⟨S32x128x128x32, .f32⟩
  | .hbm, ⟨1, _⟩ => ⟨S1x1x32x32, .f32⟩
  | .hbm, ⟨2, _⟩ => ⟨S_, .f32⟩
  | .hbm, ⟨3, _⟩ => ⟨S1x1x32, .f32⟩
  | .hbm, ⟨4, _⟩ => ⟨S_, .f32⟩
  | .hbm, ⟨5, _⟩ => ⟨S1x1x32, .f32⟩
  | .hbm, ⟨6, _⟩ => ⟨S1x1x32, .f32⟩
  | .hbm, ⟨7, _⟩ => ⟨S1x1x1x32, .f32⟩
  | .hbm, ⟨8, _⟩ => ⟨S1x1x32x32, .f32⟩
  | .hbm, ⟨9, _⟩ => ⟨S1x1x32x32, .f32⟩
  | .hbm, ⟨10, _⟩ => ⟨S1x1x32x32, .f32⟩
  | .hbm, ⟨11, _⟩ => ⟨S_, .f32⟩
  | .hbm, ⟨12, _⟩ => ⟨S1x1x32, .f32⟩
  | .hbm, ⟨13, _⟩ => ⟨S1x1x1x32, .f32⟩
  | .hbm, ⟨14, _⟩ => ⟨S1x1x1x32, .f32⟩
  | .hbm, ⟨15, _⟩ => ⟨S1x1x32x32, .f32⟩
  | .hbm, ⟨16, _⟩ => ⟨S1x1x32x32, .f32⟩
  | .hbm, ⟨17, _⟩ => ⟨S32x32, .f32⟩
  | .hbm, ⟨18, _⟩ => ⟨S32x32, .f32⟩
  | .hbm, ⟨19, _⟩ => ⟨S524288x32, .f32⟩
  | .hbm, ⟨20, _⟩ => ⟨S524288x32, .f32⟩
  | .hbm, ⟨21, _⟩ => ⟨S32x128x128x32, .f32⟩
  | .local _ .vmem, ⟨0, _⟩ => ⟨S16384x32, .f32⟩
  | .local _ .vmem, ⟨1, _⟩ => ⟨S16384x32, .f32⟩
  | .local _ .vmem, ⟨2, _⟩ => ⟨S32x32, .f32⟩
  | .local _ .vmem, ⟨3, _⟩ => ⟨S16384x32, .f32⟩
  | .local _ .vmem, ⟨4, _⟩ => ⟨S16384x32, .f32⟩
  | _, _ => ⟨S32x128x128x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_cst_0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16384x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  reducesTo_S1x1x32x32_S1x1x32_d2 : S1x1x32x32.ReducesTo [2] S1x1x32
  h_S_ : 0 < S_.numel
  bcast_S_S1x1x32 : S_.BroadcastsInDim S1x1x32 (![] : Fin 0 → Fin S1x1x32.rank)
  bcast_S1x1x32_S1x1x1x32_0_1_3 : S1x1x32.BroadcastsInDim S1x1x1x32 (![0, 1, 3] : Fin 3 → Fin S1x1x1x32.rank)
  bcast_S1x1x1x32_S1x1x32x32_0_1_2_3 : S1x1x1x32.BroadcastsInDim S1x1x32x32 (![0, 1, 2, 3] : Fin 4 → Fin S1x1x32x32.rank)
  shapeCasts_S1x1x32x32_S32x32 : S1x1x32x32.ShapeCasts S32x32
  shapeCasts_S32x128x128x32_S524288x32 : S32x128x128x32.ShapeCasts S524288x32
  inb_S16384x32_S16384x32_0_0 : ∀ a, (![0, 0] : Fin 2 → Nat) a + S16384x32.size a ≤ S16384x32.size a
  h_S16384x32 : 0 < S16384x32.numel
  shapeCasts_S16384x32_S16384x32 : S16384x32.ShapeCasts S16384x32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  reduces_S16384x32_S16384 : S16384x32.Reduces [1] S16384
  shapeCasts_S16384_S16384x1 : S16384.ShapeCasts S16384x1
  broadcasts_S16384x1_S16384x32 : S16384x1.Broadcasts S16384x32
  bitsLt_bf16_f32 : FTy.bits .bf16 < FTy.bits .f32
  shapeCasts_S524288x32_S32x128x128x32 : S524288x32.ShapeCasts S32x128x128x32
  dot_S16384x32_S32x32_S16384x32_1_0_0_1_n_n_wf : DotDims.WF S16384x32 S32x32 S16384x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x32.size a ≤ S524288x32.size a
  hwx0_0 : ∀ i : grid0.Coords, EltTy.bits .f32 = 32 ∨ (Rect.block (s := S524288x32) S16384x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x32.size a ≤ S32x32.size a
  hwx0_1 : ∀ i : grid0.Coords, EltTy.bits .f32 = 32 ∨ (Rect.block (s := S32x32) S32x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16384x32.size a ≤ S524288x32.size a
  hwx0_2 : ∀ i : grid0.Coords, EltTy.bits .f32 = 32 ∨ (Rect.block (s := S524288x32) S16384x32.size (cc0_transform_2 i) (hinb0_2 i)).WholeWords (EltTy.packing .f32)

variable [Facts₀]

def dot_S16384x32_S32x32_S16384x32_1_0_0_1_n_n : DotDims S16384x32 S32x32 S16384x32 where
  lhsContracting := [1]
  rhsContracting := [0]
  lhsNonContracting := [0]
  rhsNonContracting := [1]
  lhsBatch := []
  rhsBatch := []
  wf := dot_S16384x32_S32x32_S16384x32_1_0_0_1_n_n_wf

abbrev win0_0 : Pipeline.Window sig grid0 :=
  Pipeline.Window.ofSpec (Memref.whole main_v3) S16384x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S32x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S16384x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x128x128x32 : Shape := ⟨4, ![32, 128, 128, 32]⟩
abbrev S1x1x32x32 : Shape := ⟨4, ![1, 1, 32, 32]⟩
abbrev S_ : Shape := ⟨0, ![]⟩
abbrev S1x1x32 : Shape := ⟨3, ![1, 1, 32]⟩
abbrev S1x1x1x32 : Shape := ⟨4, ![1, 1, 1, 32]⟩
abbrev S32x32 : Shape := ⟨2, ![32, 32]⟩
abbrev S32x128x128 : Shape := ⟨3, ![32, 128, 128]⟩
abbrev S32x128x128x1 : Shape := ⟨4, ![32, 128, 128, 1]⟩

abbrev nBuf : Space → Nat
  | .hbm => 29
  | .vmem => 0
  | .smem => 0
  | _ => 0

abbrev bufTy : (tb : Table) → Fin (tcTables nBuf tb) → BufTy
  | .hbm, ⟨0, _⟩ => ⟨S32x128x128x32, .f32⟩
  | .hbm, ⟨1, _⟩ => ⟨S1x1x32x32, .f32⟩
  | .hbm, ⟨2, _⟩ => ⟨S_, .f32⟩
  | .hbm, ⟨3, _⟩ => ⟨S1x1x32, .f32⟩
  | .hbm, ⟨4, _⟩ => ⟨S_, .f32⟩
  | .hbm, ⟨5, _⟩ => ⟨S1x1x32, .f32⟩
  | .hbm, ⟨6, _⟩ => ⟨S1x1x32, .f32⟩
  | .hbm, ⟨7, _⟩ => ⟨S1x1x1x32, .f32⟩
  | .hbm, ⟨8, _⟩ => ⟨S1x1x32x32, .f32⟩
  | .hbm, ⟨9, _⟩ => ⟨S1x1x32x32, .f32⟩
  | .hbm, ⟨10, _⟩ => ⟨S1x1x32x32, .f32⟩
  | .hbm, ⟨11, _⟩ => ⟨S_, .f32⟩
  | .hbm, ⟨12, _⟩ => ⟨S1x1x32, .f32⟩
  | .hbm, ⟨13, _⟩ => ⟨S1x1x1x32, .f32⟩
  | .hbm, ⟨14, _⟩ => ⟨S1x1x1x32, .f32⟩
  | .hbm, ⟨15, _⟩ => ⟨S1x1x32x32, .f32⟩
  | .hbm, ⟨16, _⟩ => ⟨S1x1x32x32, .f32⟩
  | .hbm, ⟨17, _⟩ => ⟨S32x32, .f32⟩
  | .hbm, ⟨18, _⟩ => ⟨S_, .f32⟩
  | .hbm, ⟨19, _⟩ => ⟨S32x128x128, .f32⟩
  | .hbm, ⟨20, _⟩ => ⟨S32x128x128x1, .f32⟩
  | .hbm, ⟨21, _⟩ => ⟨S32x128x128x32, .f32⟩
  | .hbm, ⟨22, _⟩ => ⟨S32x128x128x32, .f32⟩
  | .hbm, ⟨23, _⟩ => ⟨S32x128x128x32, .f32⟩
  | .hbm, ⟨24, _⟩ => ⟨S32x32, .f32⟩
  | .hbm, ⟨25, _⟩ => ⟨S32x128x128x32, .f32⟩
  | .hbm, ⟨26, _⟩ => ⟨S32x128x128x32, .f32⟩
  | .hbm, ⟨27, _⟩ => ⟨S32x128x128x32, .f32⟩
  | .hbm, ⟨28, _⟩ => ⟨S32x128x128x32, .f32⟩
  | _, _ => ⟨S32x128x128x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_cst_0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_v0 : Ref sig .tc := ⟨.hbm, 16, rfl⟩
abbrev main_v1 : Ref sig .tc := ⟨.hbm, 17, rfl⟩
abbrev main_cst : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩

abbrev nD : Nat := 1
abbrev τ : Topo := Topo.v7x

variable {F : FTy → Type} [FloatOps F]

class Facts₀ : Prop where
  reducesTo_S1x1x32x32_S1x1x32_d2 : S1x1x32x32.ReducesTo [2] S1x1x32
  h_S_ : 0 < S_.numel
  bcast_S_S1x1x32 : S_.BroadcastsInDim S1x1x32 (![] : Fin 0 → Fin S1x1x32.rank)
  bcast_S1x1x32_S1x1x1x32_0_1_3 : S1x1x32.BroadcastsInDim S1x1x1x32 (![0, 1, 3] : Fin 3 → Fin S1x1x1x32.rank)
  bcast_S1x1x1x32_S1x1x32x32_0_1_2_3 : S1x1x1x32.BroadcastsInDim S1x1x32x32 (![0, 1, 2, 3] : Fin 4 → Fin S1x1x32x32.rank)
  shapeCasts_S1x1x32x32_S32x32 : S1x1x32x32.ShapeCasts S32x32
  reducesTo_S32x128x128x32_S32x128x128_d3 : S32x128x128x32.ReducesTo [3] S32x128x128
  bcast_S32x128x128_S32x128x128x1_0_1_2 : S32x128x128.BroadcastsInDim S32x128x128x1 (![0, 1, 2] : Fin 3 → Fin S32x128x128x1.rank)
  bcast_S32x128x128x1_S32x128x128x32_0_1_2_3 : S32x128x128x1.BroadcastsInDim S32x128x128x32 (![0, 1, 2, 3] : Fin 4 → Fin S32x128x128x32.rank)
  dot_S32x128x128x32_S32x32_S32x128x128x32_3_0_012_1_n_n_wf : DotDims.WF S32x128x128x32 S32x32 S32x128x128x32 [3] [0] [0, 1, 2] [1] [] []

variable [Facts₀]

def dot_S32x128x128x32_S32x32_S32x128x128x32_3_0_012_1_n_n : DotDims S32x128x128x32 S32x32 S32x128x128x32 where
  lhsContracting := [3]
  rhsContracting := [0]
  lhsNonContracting := [0, 1, 2]
  rhsNonContracting := [1]
  lhsBatch := []
  rhsBatch := []
  wf := dot_S32x128x128x32_S32x32_S32x128x128x32_3_0_012_1_n_n_wf

class Facts : Prop extends Facts₀ where

variable [Facts]
-- ==== Proof.RowLse.lean ====
/-
  The function both programs compute, stated once and free of any tiling.

  For a row `xr` of 32 extended reals and a 32 × 32 weight matrix `W`, the log-domain 1×1 convolution is
      rowLse xr W s = M + log (∑ k, exp (xr k − M) · W k s),     M = max (−∞, xr 0, …, xr 31),
  the maximum folded from −∞ (the f32 pattern 0xFF800000).  Over the flat [524288, 32] matrix of pixels (`lse2`) row `R`
  reads row `R` of the matrix; over the [32, 128, 128, 32] image (`lse4`) pixel (b, h, w) reads its 32 channels.  The two
  are one array under the row-major reshape between the shapes: pixel (b, h, w) is row (b·128 + h)·128 + w
  (`shapeCast_lse2`).  No law of the extended reals beyond that re-indexing is used: both programs apply the same
  operations in the same order, so nothing here needs the inputs finite.

  Also here, because they need only the library: a lane maximum of a [16384, 32] block and a host maximum over the last
  axis of the [32, 128, 128, 32] image are both `rowMax` of the row they reduce (a fold of `max` is order-free).
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value

noncomputable section

namespace Cert.LogConv

open Idealize.ShloMosaic Idealize.ShloMosaic.ValueIdx

/-- The image, the flat matrix of its pixels, a pixel's maxima with and without the unit channel axis, one block of
    16384 pixels with its column of maxima, and the weights. -/
abbrev Img : Shape := ⟨4, ![32, 128, 128, 32]⟩
abbrev Flat : Shape := ⟨2, ![524288, 32]⟩
abbrev Pix : Shape := ⟨3, ![32, 128, 128]⟩
abbrev Blk : Shape := ⟨2, ![16384, 32]⟩
abbrev Col : Shape := ⟨1, ![16384]⟩
abbrev Sq : Shape := ⟨2, ![32, 32]⟩
abbrev Sc : Shape := ⟨0, ![]⟩

/-- The maximum of a row, folded from −∞. -/
def rowMax (xr : Fin 32 → EReal) : EReal :=
  (Finset.univ : Finset (Fin 32)).fold max (Ideal.ofBits .f32 0xFF800000#32) xr

/-- The stable log-sum-exp of a row against column `s` of the weights. -/
def rowLse (xr : Fin 32 → EReal) (W : Sq.Idx → EReal) (s : Fin 32) : EReal :=
  rowMax xr + Ideal.log (∑ k : Fin 32, Ideal.exp (xr k - rowMax xr) * W (ix2 k s))

/-- Over the flat matrix of pixels: entry (R, s) is row R's log-sum-exp against column s. -/
def lse2 (X : Flat.Idx → EReal) (W : Sq.Idx → EReal) : Flat.Idx → EReal :=
  fun i => rowLse (fun k => X (ix2 (i 0) k)) W (i 1)

/-- Over the image: entry (b, h, w, s) is pixel (b, h, w)'s log-sum-exp against column s. -/
def lse4 (x : Img.Idx → EReal) (W : Sq.Idx → EReal) : Img.Idx → EReal :=
  fun i => rowLse (fun k => x (ix4 (i 0) (i 1) (i 2) k)) W (i 3)

/-- Flattening the image, taking the log-sum-exp row by row and folding the result back is the log-sum-exp pixel by
    pixel: pixel (b, h, w) is row (b·128 + h)·128 + w of the flat matrix, channel by channel. -/
theorem shapeCast_lse2 (x : Img.Idx → EReal) (W : Sq.Idx → EReal) (h : Img.ShapeCasts Flat) (h' : Flat.ShapeCasts Img) :
    shapeCast Img (lse2 (shapeCast Flat x h) W) h' = lse4 x W := by
  funext i
  have h0 : (i 0).val < 32 := (i 0).isLt
  have h1 : (i 1).val < 128 := (i 1).isLt
  have h2 : (i 2).val < 128 := (i 2).isLt
  have h3 : (i 3).val < 32 := (i 3).isLt
  have hR : ((i 0).val * 128 + (i 1).val) * 128 + (i 2).val < 524288 := by omega
  rw [shapeCast_apply _ h' i (ix2 (⟨((i 0).val * 128 + (i 1).val) * 128 + (i 2).val, hR⟩ : Fin 524288) (i 3))
    (by rw [Shape.rowMajor_val_two, Shape.rowMajor_val_four]; rfl)]
  show rowLse (fun k => shapeCast Flat x h (ix2 (⟨((i 0).val * 128 + (i 1).val) * 128 + (i 2).val, hR⟩ : Fin 524288) k)) W (i 3)
    = rowLse (fun k => x (ix4 (i 0) (i 1) (i 2) k)) W (i 3)
  refine congrArg (fun f => rowLse f W (i 3)) (funext fun k => ?_)
  exact shapeCast_apply x h _ (ix4 (i 0) (i 1) (i 2) k) (by rw [Shape.rowMajor_val_four, Shape.rowMajor_val_two]; rfl)

/-- A block's lane maximum at row `r` is the maximum of that row. -/
theorem multiReduction_rowMax (x : FVec Ideal Blk .f32) (h : Blk.Reduces [1] Col) (hφ : FKind.Formats .f32)
    (hacc : (0xFF800000#32 : BitVec FTy.f32.bits) = FKind.maximumf.neutral .f32 hφ) (r : Fin 16384) :
    multiReduction .maximumf [1] Col x 0xFF800000#32 h hφ hacc (ix1 r) = rowMax fun k => x (ix2 r k) := by
  rw [Ideal.multiReduction_maximumf_single]
  unfold rowMax
  refine congrArg (fun f => (Finset.univ : Finset (Fin 32)).fold max (Ideal.ofBits .f32 0xFF800000#32) f) (funext fun k => ?_)
  exact congrArg x (funext fun c => Fin.ext (by match c with | ⟨0, _⟩ => rfl | ⟨1, _⟩ => rfl))

/-- The host's maximum over the channel axis at pixel (b, h, w), started from −∞, is the maximum of that pixel's row. -/
theorem hostReduce_rowMax (x : FVec Ideal Img .f32) (h' : Img.ReducesTo [3] Pix) (hu : 0 < Sc.numel)
    (b : Fin 32) (p : Fin 128) (q : Fin 128) :
    Host.reduce FloatOps.maximumf x (constant (F := Ideal) Sc .f32 0xFF800000#32) h' hu (ix3 b p q)
      = rowMax fun k => x (ix4 b p q k) := by
  rw [Host.reduce_eq_fold_single FloatOps.maximumf x _ h' (by decide) hu]
  unfold rowMax
  refine congrArg (fun f => (Finset.univ : Finset (Fin 32)).fold max (Ideal.ofBits .f32 0xFF800000#32) f) (funext fun k => ?_)
  exact congrArg x (funext fun c => Fin.ext (by match c with | ⟨0, _⟩ => rfl | ⟨1, _⟩ => rfl | ⟨2, _⟩ => rfl | ⟨3, _⟩ => rfl))

end Cert.LogConv

end
-- ==== Proof.BlockValue.lean ====
/-
  What the kernel body stores, read at an entry.

  At grid point t the body loads a block `xb` of 16384 pixels (rows) by 32 channels and the 32 × 32 weights `wb`, and
  stores, at row r and column s,
      m r + log (∑ k, exp (xb r k − m r) · wb k s),      m r = max (−∞, xb r 0, …, xb r 31):
  the lane maximum is a column [16384] recast to [16384, 1] and broadcast back along the channels; the narrowing of
  both matmul operands to bf16 changes nothing over the extended reals; the block product into a zero accumulator is
  the plain sum over the one contracted axis.  So the stored entry is `rowLse` of row r of the block.
-/
import proofs.«179342_j1700807049807_1_alg».proof.Proof.Gen.KernelIdeal.Skeleton
import proofs.«179342_j1700807049807_1_alg».proof.Proof.RowLse
import Idealize.ShloMosaic.Lib.ValueIdx
import Idealize.ShloMosaic.Lib.Pipeline.Value
import Idealize.ShloMosaic.PureOps.Ideal.Laws

noncomputable section

namespace Cert.KernelIdeal.BlockValue

open Cert.KernelIdeal Cert.KernelIdeal.Gen Idealize.ShloMosaic Idealize.ShloMosaic.ValueIdx Cert.LogConv

/-! ## The column of row maxima, and its broadcast along the channels -/

/-- The lane maxima recast as a column: entry (r, 0) is the maximum of row r. -/
theorem colMax_apply (xb : FVec Ideal S16384x32 .f32) (r : Fin 16384) (z : Fin 1) :
    shapeCast S16384x1 (multiReduction .maximumf [1] S16384 xb 0xFF800000#32 reduces_S16384x32_S16384 (.inl rfl) rfl)
        shapeCasts_S16384_S16384x1 (ix2 r z)
      = rowMax fun k => xb (ix2 r k) := by
  have hz : z.val = 0 := by have := z.isLt; omega
  rw [shapeCast_apply _ shapeCasts_S16384_S16384x1 (ix2 r z) (ix1 r)
    (by rw [Shape.rowMajor_val_one, Shape.rowMajor_val_two]; show r.val = r.val * 1 + z.val; omega)]
  exact multiReduction_rowMax xb _ _ _ r

/-- A column broadcast along the channels reads its own row. -/
theorem bcastCol_apply (v : FVec Ideal S16384x1 .f32) (r : Fin 16384) (k : Fin 32) :
    broadcastTo S16384x32 v broadcasts_S16384x1_S16384x32 (ix2 r k) = v (ix2 r (0 : Fin 1)) :=
  broadcastTo_apply v broadcasts_S16384x1_S16384x32 (ix2 r k) (ix2 r (0 : Fin 1)) (fun a => match a with
    | ⟨0, _⟩ => by show r.val = if (16384 : Nat) = 1 then 0 else r.val; rw [if_neg (by decide)]
    | ⟨1, _⟩ => by show 0 = if (1 : Nat) = 1 then 0 else k.val; rw [if_pos rfl])

/-- So the broadcast column of lane maxima reads, anywhere in row r, the maximum of row r. -/
theorem rowMaxBcast_apply (xb : FVec Ideal S16384x32 .f32) (r : Fin 16384) (k : Fin 32) :
    broadcastTo S16384x32 (shapeCast S16384x1 (multiReduction .maximumf [1] S16384 xb 0xFF800000#32 reduces_S16384x32_S16384 (.inl rfl) rfl)
        shapeCasts_S16384_S16384x1) broadcasts_S16384x1_S16384x32 (ix2 r k)
      = rowMax fun k => xb (ix2 r k) :=
  (bcastCol_apply _ r k).trans (colMax_apply xb r 0)

/-! ## The block product as a sum over the channels -/

theorem lhs_mm_0 (i : S16384x32.Idx) (q : dot_S16384x32_S32x32_S16384x32_1_0_0_1_n_n.contr.Idx) :
    (dot_S16384x32_S32x32_S16384x32_1_0_0_1_n_n.lhsIdx i q 0).val = (i 0).val := by
  unfold DotDims.lhsIdx
  rw [dif_neg (show ¬(0 : Fin S16384x32.rank) ∈ dot_S16384x32_S32x32_S16384x32_1_0_0_1_n_n.lhsBatch by decide), dif_pos (show (0 : Fin S16384x32.rank) ∈ dot_S16384x32_S32x32_S16384x32_1_0_0_1_n_n.lhsNonContracting by decide)]
  rfl
theorem lhs_mm_1 (i : S16384x32.Idx) (q : dot_S16384x32_S32x32_S16384x32_1_0_0_1_n_n.contr.Idx) :
    (dot_S16384x32_S32x32_S16384x32_1_0_0_1_n_n.lhsIdx i q 1).val = (q ⟨0, by decide⟩).val :=
  dot_S16384x32_S32x32_S16384x32_1_0_0_1_n_n.lhsIdx_val_of_single rfl i q
theorem rhs_mm_0 (i : S16384x32.Idx) (q : dot_S16384x32_S32x32_S16384x32_1_0_0_1_n_n.contr.Idx) :
    (dot_S16384x32_S32x32_S16384x32_1_0_0_1_n_n.rhsIdx i q 0).val = (q ⟨0, by decide⟩).val :=
  dot_S16384x32_S32x32_S16384x32_1_0_0_1_n_n.rhsIdx_val_of_single rfl i q
theorem rhs_mm_1 (i : S16384x32.Idx) (q : dot_S16384x32_S32x32_S16384x32_1_0_0_1_n_n.contr.Idx) :
    (dot_S16384x32_S32x32_S16384x32_1_0_0_1_n_n.rhsIdx i q 1).val = (i 1).val := by
  unfold DotDims.rhsIdx
  rw [dif_neg (show ¬(1 : Fin S32x32.rank) ∈ dot_S16384x32_S32x32_S16384x32_1_0_0_1_n_n.rhsBatch by decide), dif_pos (show (1 : Fin S32x32.rank) ∈ dot_S16384x32_S32x32_S16384x32_1_0_0_1_n_n.rhsNonContracting by decide)]
  rfl

/-- The block product into the zero accumulator at (r, s): the sum over channel k of left (r, k) times right (k, s). -/
theorem matmul_apply_ix2 (l : FVec Ideal S16384x32 .bf16) (w : FVec Ideal S32x32 .bf16) (r : Fin 16384) (s : Fin 32) :
    matmul dot_S16384x32_S32x32_S16384x32_1_0_0_1_n_n none l w (constant S16384x32 .f32 0x00000000#32) (ix2 r s)
      = ∑ k : Fin 32, l (ix2 r k) * w (ix2 k s) := by
  simp only [matmul]
  rw [Ideal.matmul_constant_zero_apply, ← Equiv.sum_comp (ValueIdx.contrEquiv1 dot_S16384x32_S32x32_S16384x32_1_0_0_1_n_n 32 rfl rfl).symm]
  refine Finset.sum_congr rfl fun k _ => ?_
  have hk := ValueIdx.contrEquiv1_symm_val dot_S16384x32_S32x32_S16384x32_1_0_0_1_n_n 32 rfl rfl k
  have el : dot_S16384x32_S32x32_S16384x32_1_0_0_1_n_n.lhsIdx (ix2 r s) ((ValueIdx.contrEquiv1 dot_S16384x32_S32x32_S16384x32_1_0_0_1_n_n 32 rfl rfl).symm k) = ix2 r k := funext fun a => Fin.ext (by
    match a with
    | ⟨0, _⟩ => exact lhs_mm_0 _ _
    | ⟨1, _⟩ => exact (lhs_mm_1 _ _).trans hk)
  have er : dot_S16384x32_S32x32_S16384x32_1_0_0_1_n_n.rhsIdx (ix2 r s) ((ValueIdx.contrEquiv1 dot_S16384x32_S32x32_S16384x32_1_0_0_1_n_n 32 rfl rfl).symm k) = ix2 k s := funext fun a => Fin.ext (by
    match a with
    | ⟨0, _⟩ => exact (rhs_mm_0 _ _).trans hk
    | ⟨1, _⟩ => exact rhs_mm_1 _ _)
  rw [el, er]

/-! ## The stored entry -/

/-- The body's stored value at row r, column s, is the log-sum-exp of row r of the loaded block against column s of the
    loaded weights. -/
theorem pay_apply (xb : Vec Ideal S16384x32 .f32) (wb : Vec Ideal S32x32 .f32) (r : Fin 16384) (s : Fin 32) :
    k0_pay1 (F := Ideal) xb wb (ix2 r s) = rowLse (fun k => xb (ix2 r k)) wb s := by
  unfold k0_pay1 rowLse
  simp only [shapeCast_self]
  rw [addf_apply, rowMaxBcast_apply xb r s]
  refine congrArg (fun y => (rowMax fun k => xb (ix2 r k)) + Ideal.log y) ?_
  rw [matmul_apply_ix2]
  refine Finset.sum_congr rfl fun k _ => ?_
  rw [truncf_apply, truncf_apply]
  show Ideal.exp (xb (ix2 r k) - _) * wb (ix2 k s) = _
  rw [rowMaxBcast_apply xb r k]

end Cert.KernelIdeal.BlockValue

end
-- ==== Proof.ArrayValue.lean ====
/-
  The kernel's result array.

  The region runs the body at 32 grid points.  Point t reads rows t·16384 … t·16384 + 16383 of the flat [524288, 32]
  matrix of pixels (the image reshaped) and the whole 32 × 32 weight matrix, and writes the same rows of the output.
  The body's stored entry is the row log-sum-exp (`BlockValue.pay_apply`), so what point t writes back is block t of
  `lse2` of the two arrays the region finds; the 32 blocks tile the output, so the region leaves the output at `lse2`;
  the one host operation after the region folds it back to [32, 128, 128, 32], which is `lse4` of the image
  (`shapeCast_lse2`).  The weights stay the array the host prefix left (`V m c main_v2`): nothing here reads inside it.
-/
import proofs.«179342_j1700807049807_1_alg».proof.Proof.Gen.KernelIdeal.Frame
import proofs.«179342_j1700807049807_1_alg».proof.Proof.BlockValue
import Idealize.ShloMosaic.Lib.Pipeline.Value
import Idealize.ShloMosaic.Lib.StableHlo.Run
import Idealize.ShloMosaic.Lib.ValueIdx

set_option maxRecDepth 16384

noncomputable section

namespace Cert.KernelIdeal.ArrayValue

open Cert.KernelIdeal Cert.KernelIdeal.Gen Idealize.ShloMosaic Idealize.ShloMosaic.TcCoe Idealize.SL.Sem
open Idealize.ShloMosaic.ValueIdx Cert.LogConv

variable (m : (ℓ : Loc nD τ sig) → Buf (Elt Ideal) ℓ) (ρ : Dev nD → PrngReg)

/-! ## One block -/

/-- A block of 16384 rows taken at row offset T·16384 of a flat matrix `X`, with the weights `W`, stores at its entry
    `y` the value `lse2 X W` has at the entry of the flat matrix that `y` sits on. -/
theorem block_eq (X : S524288x32.Idx → EReal) (W : S32x32.Idx → EReal) (xb : Vec Ideal S16384x32 .f32) (wb : Vec Ideal S32x32 .f32)
    (T : Nat) (hT : T < 32)
    (hx : ∀ (r : Fin 16384) (k : Fin 32), xb (ix2 r k) = X (ix2 (⟨T * 16384 + r.val, by have := r.isLt; omega⟩ : Fin 524288) k))
    (hw : wb = W) (y : S16384x32.Idx) (i : S524288x32.Idx)
    (hi0 : (i 0).val = T * 16384 + (y 0).val) (hi1 : (i 1).val = (y 1).val) :
    k0_pay1 (F := Ideal) xb wb y = lse2 X W i := by
  obtain ⟨r, s, rfl⟩ : ∃ (r : Fin 16384) (s : Fin 32), y = ix2 r s := ⟨y 0, y 1, eq_ix2 y⟩
  rw [BlockValue.pay_apply]
  unfold lse2
  have h0 : i 0 = (⟨T * 16384 + r.val, by have := r.isLt; omega⟩ : Fin 524288) := Fin.ext hi0
  have h1 : i 1 = s := Fin.ext hi1
  rw [h0, h1, hw]
  exact congrArg (fun f => rowLse f W s) (funext fun k => hx r k)

/-! ## The printed index maps, decided over the grid -/

theorem hz : (![0, 0] : Fin 2 → Nat) = fun _ => 0 := funext fun a => by fin_cases a <;> rfl

/-- The pixel windows move one block of rows per point; the weights' window stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-! ## What a point writes back, and the cover -/

/-- What point t writes back is block t of `lse2` of the flat matrix and the weights as the region finds them. -/
theorem flushed_eq (c : Dev nD) (t : Fin cfg0.N) :
    (dats m 0 c).flushed 2 t = ((cfg0.win 2).blk t).view.read (Elt Ideal) (lse2 (V m c main_v3) (V m c main_v2)) := by
  show (cfg0.win 2).cut (grid0.coords t) ((dats m 0 c).after 2 t) = _
  rw [after0_2]
  unfold out0_2
  rw [View.canon_unit_zero hz]
  simp only [View.ld_unit_zero (S := S16384x32) hz, View.ld_unit_zero (S := S32x32) hz]
  obtain ⟨e0, e1, e2, e3, e4, e5⟩ := idx_facts t
  funext j
  refine block_eq (V m c main_v3) (V m c main_v2) (iblk m c 0 t) (iblk m c 1 t) t.val t.isLt ?_ ?_ j _ ?_ ?_
  · intro r k
    show V m c main_v3 (((cfg0.win 0).blk t).view.emb (ix2 r k)) = _
    refine congrArg (V m c main_v3) (funext fun a => Fin.ext ?_)
    match a with
    | ⟨0, _⟩ => show win0_0.index t (0 : Fin 2) * 16384 + 1 * r.val = t.val * 16384 + r.val; omega
    | ⟨1, _⟩ => show win0_0.index t (1 : Fin 2) * 32 + 1 * k.val = k.val; omega
  · funext y
    show V m c main_v2 (((cfg0.win 1).blk t).view.emb y) = V m c main_v2 y
    refine congrArg (V m c main_v2) (funext fun a => Fin.ext ?_)
    match a with
    | ⟨0, _⟩ => show win0_1.index t (0 : Fin 2) * 32 + 1 * (y 0).val = (y 0).val; omega
    | ⟨1, _⟩ => show win0_1.index t (1 : Fin 2) * 32 + 1 * (y 1).val = (y 1).val; omega
  · show win0_2.index t (0 : Fin 2) * 16384 + 1 * (j 0).val = t.val * 16384 + (j 0).val; omega
  · show win0_2.index t (1 : Fin 2) * 32 + 1 * (j 1).val = (j 1).val; omega

/-- An index of the output is in point t's block iff each coordinate is in the block's range on its axis. -/
theorem mem_blk (t : Fin cfg0.N) (i : S524288x32.Idx) :
    i ∈ ((cfg0.win 2).blk t).view.set ↔ ∀ a : Fin 2, win0_2.index t a * S16384x32.size a ≤ (i a).val ∧ (i a).val < win0_2.index t a * S16384x32.size a + S16384x32.size a := by
  show i ∈ ((View.whole main_v4).slice (win0_2.rect t)).set ↔ _
  rw [View.set_slice_whole, Rect.mem_set_unit]
  exact Iff.rfl

/-- Every entry of the output is written back by the point that holds its row: row R by point R / 16384. -/
theorem cover (i : S524288x32.Idx) : ∃ t : Fin cfg0.N, (cfg0.win 2).flush t = true ∧ i ∈ ((cfg0.win 2).blk t).view.set := by
  have hi0 : (i 0).val < 524288 := (i 0).isLt
  have hi1 : (i 1).val < 32 := (i 1).isLt
  have hlt : (i 0).val / 16384 < cfg0.N := by show _ < grid0.N; rw [N_0]; omega
  obtain ⟨e0, e1, e2, e3, e4, e5⟩ := idx_facts ⟨(i 0).val / 16384, hlt⟩
  refine ⟨⟨(i 0).val / 16384, hlt⟩, flush0_2 _, ?_⟩
  rw [mem_blk]
  intro a
  match a with
  | ⟨0, _⟩ =>
    show win0_2.index ⟨(i 0).val / 16384, hlt⟩ (0 : Fin 2) * 16384 ≤ (i 0).val ∧ (i 0).val < win0_2.index ⟨(i 0).val / 16384, hlt⟩ (0 : Fin 2) * 16384 + 16384
    rw [e4]; show (i 0).val / 16384 * 16384 ≤ (i 0).val ∧ (i 0).val < (i 0).val / 16384 * 16384 + 16384; omega
  | ⟨1, _⟩ =>
    show win0_2.index ⟨(i 0).val / 16384, hlt⟩ (1 : Fin 2) * 32 ≤ (i 1).val ∧ (i 1).val < win0_2.index ⟨(i 0).val / 16384, hlt⟩ (1 : Fin 2) * 32 + 32
    rw [e5]; omega

/-- The region leaves its output array at `lse2` of the flat matrix and the weights. -/
theorem final (c : Dev nD) : (dats m 0 c).arrAt 2 cfg0.N = lse2 (V m c main_v3) (V m c main_v2) :=
  (dats m 0 c).arrAt_eq_of_cover 2 (lse2 (V m c main_v3) (V m c main_v2)) (fun t _ => flushed_eq m c t) cover

/-! ## The host operations around the region -/

/-- The flat matrix the region finds is the image reshaped. -/
theorem V_main_v3 (c : Dev nD) :
    (V m c main_v3 : S524288x32.Idx → EReal)
      = shapeCast S524288x32 (m ((c : Thread nD τ).loc main_arg0)) shapeCasts_S32x128x128x32_S524288x32 := by
  dsimp only [Gen.V, Gen.V0]
  simp only [Gen.hostOps0, Gen.hostOps0_1, List.flatten_cons, List.flatten_nil, List.append_nil, List.cons_append, List.nil_append]
  after_results
  rfl

/-- After the region's one host operation the result buffer holds the pixelwise log-sum-exp of the image. -/
theorem result (c : Dev nD) :
    Pipeline.afterTail₀ cfgs (dats m) 0 (V0 m) [hostOps1] c main_v5
      = lse4 (m ((c : Thread nD τ).loc main_arg0)) (V m c main_v2) := by
  unfold Pipeline.afterTail₀
  show StableHlo.after hostOps1 _ (Proc.devRef .tc main_v5) = _
  after_results
  have hA : Pipeline.withArrays (cfgs 0).spec c (V0 m c) (fun w => (dats m 0 c).arrAt w (cfgs 0).N) (Proc.tc.devRef main_v4)
      = lse2 (V m c main_v3) (V m c main_v2) :=
    (Pipeline.withArrays_arr spec0 launch0.win.arr_inj c _ _ 2).trans (final m c)
  show shapeCast S32x128x128x32 (Pipeline.withArrays (cfgs 0).spec c (V0 m c) (fun w => (dats m 0 c).arrAt w (cfgs 0).N)
      (Proc.tc.devRef main_v4)) shapeCasts_S524288x32_S32x128x128x32 = _
  rw [hA, V_main_v3 m c]
  exact shapeCast_lse2 _ _ _ _

/-! ## The run, re-posted -/

/-- Every weakly fair execution of the kernel's @main terminates with the result buffer at the pixelwise log-sum-exp
    of the image against the weights the host prefix left, and the two arguments as launched. -/
theorem run : θ_run defs (onTc (τ := τ) (main (F := Ideal))) ⟨m, fun _ => 0, ρ⟩ fun r => ∀ c : Dev nD,
      r.2.mem ((c.tc : Thread nD τ).loc main_v5) = lse4 (m ((c : Thread nD τ).loc main_arg0)) (V m c main_v2)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v5 (Pipeline.mem_restRefs_of main_v5 (by decide) (by decide))).trans (result m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.ArrayValue

end
-- ==== Proof.RefValue.lean ====
/-
  The reference's result, read at an entry.

  The reference takes the maximum `m` of each pixel's 32 channels (a host reduce over the last axis, from −∞), keeps it
  with a unit channel axis, broadcasts it back, and forms  m + log (exp (x − m) · W)  with the product contracted over the
  channels.  At pixel (b, h, w) and column s that is `rowLse` of the pixel's row of channels against column s of the
  weights `W` — whatever `W` is: the weights enter only through the contraction, so the stage that computes them from the
  accumulators is never opened here.
-/
import proofs.«179342_j1700807049807_1_alg».proof.Proof.Gen.ReferenceIdeal.Read
import proofs.«179342_j1700807049807_1_alg».proof.Proof.RowLse
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx
open Cert.LogConv

/-- The broadcast maximum, anywhere in pixel (b, h, w)'s row of channels, is the maximum of that row. -/
theorem pixMax_apply (x : (⟨S32x128x128x32, .f32⟩ : BufTy).Contents (Elt Ideal)) (b : Fin 32) (p q : Fin 128) (k : Fin 32) :
    val_main_v4 (F := Ideal) x (ix4 b p q k) = rowMax fun k => x (ix4 b p q k) := by
  rw [val_main_v4_apply, val_main_v3_apply,
    show idx_main_v3 (idx_main_v4 (ix4 b p q k)) = ix3 b p q from
      funext fun a => Fin.ext (by match a with | ⟨0, _⟩ => rfl | ⟨1, _⟩ => rfl | ⟨2, _⟩ => rfl)]
  unfold val_main_v2 val_main_cst
  exact hostReduce_rowMax x _ _ b p q

/-- The same of the second broadcast of the kept maximum, the one added back at the end. -/
theorem pixMax_apply' (x : (⟨S32x128x128x32, .f32⟩ : BufTy).Contents (Elt Ideal)) (b : Fin 32) (p q : Fin 128) (k : Fin 32) :
    val_main_v10 (F := Ideal) x (ix4 b p q k) = rowMax fun k => x (ix4 b p q k) := by
  rw [val_main_v10_apply, val_main_v3_apply,
    show idx_main_v3 (idx_main_v10 (ix4 b p q k)) = ix3 b p q from
      funext fun a => Fin.ext (by match a with | ⟨0, _⟩ => rfl | ⟨1, _⟩ => rfl | ⟨2, _⟩ => rfl)]
  unfold val_main_v2 val_main_cst
  exact hostReduce_rowMax x _ _ b p q

/-- The reference's result is the pixelwise log-sum-exp of the image against the weights its own prefix computes. -/
theorem result_eq (x : (⟨S32x128x128x32, .f32⟩ : BufTy).Contents (Elt Ideal)) (a : (⟨S1x1x32x32, .f32⟩ : BufTy).Contents (Elt Ideal)) :
    val_main_v11 (F := Ideal) x a = lse4 x (val_main_v7 (F := Ideal) a) := by
  funext i
  obtain ⟨b, p, q, s, rfl⟩ : ∃ (b : Fin 32) (p q : Fin 128) (s : Fin 32), i = ix4 b p q s := ⟨i 0, i 1, i 2, i 3, eq_ix4 i⟩
  rw [val_main_v11_apply, val_main_v9_apply, val_main_v8_apply, pixMax_apply' x b p q s]
  unfold lse4 rowLse
  refine congrArg (fun y => (rowMax fun k => x (ix4 b p q k)) + Ideal.log y) (Finset.sum_congr rfl fun k _ => ?_)
  rw [show lidx_main_v8 (ix4 b p q s) k = ix4 b p q k from
      funext fun c => Fin.ext (by match c with | ⟨0, _⟩ => rfl | ⟨1, _⟩ => rfl | ⟨2, _⟩ => rfl | ⟨3, _⟩ => rfl),
    show ridx_main_v8 (ix4 b p q s) k = ix2 k s from
      funext fun c => Fin.ext (by match c with | ⟨0, _⟩ => rfl | ⟨1, _⟩ => rfl),
    val_main_v6_apply, val_main_v5_apply, pixMax_apply x b p q k]
  rfl

end Cert.ReferenceIdeal.RefValue

end
-- ==== Proof.lean ====
/-
  A log-domain 1×1 convolution: for every pixel (b, h, w) of a [32, 128, 128, 32] image `x` and every output column s,
      out b h w s = M + log (∑ c, exp (x b h w c − M) · W c s),     M = max (−∞, x b h w 0, …, x b h w 31),
  with W = exp (log_softmax of the accumulators over the channel axis), a 32 × 32 matrix both programs compute with the
  same host operations.

  The kernel flattens the image to [524288, 32], runs 32 grid points of 16384 rows each — a lane maximum, exp, a bf16
  block product into a zero accumulator, log, add —, and folds the result back; the reference does the same on the
  whole image with a host maximum and one contraction over the channels.  Over the extended reals the narrowing to
  bf16 is the identity and both products are the plain sum over the 32 channels, so each side is the function
  `lse4 x W` (Proof/RowLse.lean):
    · the kernel: Proof/BlockValue.lean (the body's stored entry), Proof/ArrayValue.lean (the blocks tile the output;
      the reshape before and after the region);
    · the reference: Proof/RefValue.lean (its last stage at a pixel and a column).
  The two agree operation by operation, so no finiteness of the inputs is used.  The weights are never opened: the array
  the kernel's host prefix leaves for them and the reference's own weights stage are one term of the accumulators
  (`weights_eq`).  The idealization rewrote nothing, so `preserves` is trivial; the three frames are the generated ones
  (the reference's is its run with the result dropped).
-/
import proofs.«179342_j1700807049807_1_alg».proof.Defs
import proofs.«179342_j1700807049807_1_alg».proof.Proof.Gen.Kernel
import proofs.«179342_j1700807049807_1_alg».proof.Proof.Gen.Kernel.Frame
import proofs.«179342_j1700807049807_1_alg».proof.Proof.Gen.KernelIdeal
import proofs.«179342_j1700807049807_1_alg».proof.Proof.Gen.KernelIdeal.Frame
import proofs.«179342_j1700807049807_1_alg».proof.Proof.Gen.ReferenceIdeal
import proofs.«179342_j1700807049807_1_alg».proof.Proof.Gen.Pre_finite_inputs
import proofs.«179342_j1700807049807_1_alg».proof.Proof.Gen.ReferenceIdeal.Run
import proofs.«179342_j1700807049807_1_alg».proof.Proof.Gen.ReferenceIdeal.Read
import proofs.«179342_j1700807049807_1_alg».proof.Proof.ArrayValue
import proofs.«179342_j1700807049807_1_alg».proof.Proof.RefValue
import Idealize.ShloMosaic.Lib.StableHlo.Run
import Idealize.ShloMosaic.Adequacy
import Idealize.ShloMosaic.Init

noncomputable section

namespace Cert.Proof

open Idealize.ShloMosaic Idealize.ShloMosaic.TcCoe Idealize.SL.Sem Cert.LogConv

/-- The weight matrix the kernel's region finds is the reference's weights stage of the same accumulators: both are
    exp of the reshaped log-softmax, spelt by the same host operations. -/
theorem weights_eq (m : (ℓ : Loc Cert.KernelIdeal.nD Cert.KernelIdeal.τ Cert.KernelIdeal.sig) → Buf (Elt Ideal) ℓ)
    (c : Dev Cert.KernelIdeal.nD) :
    (Cert.KernelIdeal.Gen.V m c Cert.KernelIdeal.main_v2 : Cert.KernelIdeal.S32x32.Idx → EReal)
      = Cert.ReferenceIdeal.Read.val_main_v7 (F := Ideal)
          (m ((c.tc : Thread Cert.KernelIdeal.nD Cert.KernelIdeal.τ).loc Cert.KernelIdeal.main_arg1)) := by
  dsimp only [Cert.KernelIdeal.Gen.V, Cert.KernelIdeal.Gen.V0]
  simp only [Cert.KernelIdeal.Gen.hostOps0, Cert.KernelIdeal.Gen.hostOps0_1, List.flatten_cons, List.flatten_nil,
    List.append_nil, List.cons_append, List.nil_append]
  after_results
  rfl

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both runs end with the result at the pixelwise log-sum-exp of the image against the weights of the accumulators. -/
theorem algebraic : Cert.algebraic_KernelIdeal_ReferenceIdeal := by
  intro m ρ m' ρ' _ hagree
  refine ⟨fun c => lse4 (m ((c.tc : Thread Cert.KernelIdeal.nD Cert.KernelIdeal.τ).loc Cert.KernelIdeal.main_arg0))
      (Cert.KernelIdeal.Gen.V m c Cert.KernelIdeal.main_v2), Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.RefValue.result_eq, (hagree c).1, (hagree c).2]
  exact congrArg (lse4 _) (weights_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
